-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S2048x2048 : Shape := ⟨2, ![2048, 2048]⟩
abbrev S16384x2048 : Shape := ⟨2, ![16384, 2048]⟩
abbrev S16384 : Shape := ⟨1, ![16384]⟩
abbrev S2048 : Shape := ⟨1, ![2048]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S16384x2048 : S_.BroadcastsInDim S16384x2048 (![] : Fin 0 → Fin S16384x2048.rank)
  reducesTo_S16384x2048_S_d0_1 : S16384x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg6 : FVec F S2048 .f32) (main_arg7 : FVec F S2048 .f32) (main_v13 : IVec S_ 1) (main_v16 : IVec S16384x2048 1) : IVec S_ 1 :=
  let main_c_5 : IVec S_ 1 := constantI S_ 1 1#1
  let main_v17 : IVec S_ 1 := (fun x v => Host.reduce IntOp.andi x v reducesTo_S16384x2048_S_d0_1 h_S_) main_v16 main_c_5
  let main_v18 : IVec S_ 1 := andi main_v13 main_v17
  let main_v19 : FVec F S2048 .f32 := Host.absf main_arg6
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg7
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S16384x2 .f32) (main_arg1 : FVec F S2048x2048 .f32) (main_arg2 : FVec F S16384x2 .f32) (main_arg3 : FVec F S16384x2048 .f32) (main_arg4 : IVec S16384 32) (main_arg5 : IVec S16384x2048 32) (main_arg6 : FVec F S2048 .f32) (main_arg7 : FVec F S2048 .f32) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S16384x2 .f32 := Host.absf main_arg2
  let main_cst_2 : FVec F S_ .f32 := constant S_ .f32 0x7F800000#32
  let main_v10 : FVec F S16384x2 .f32 := broadcastInDim S16384x2 ![] bcast_S_S16384x2 main_cst_2
  let main_v11 : IVec S16384x2 1 := cmpf .olt main_v9 main_v10
  let main_c_3 : IVec S_ 1 := constantI S_ 1 1#1
  let main_v12 : IVec S_ 1 := (fun x v => Host.reduce IntOp.andi x v reducesTo_S16384x2_S_d0_1 h_S_) main_v11 main_c_3
  let main_v13 : IVec S_ 1 := andi main_v8 main_v12
  let main_v14 : FVec F S16384x2048 .f32 := Host.absf main_arg3
  let main_cst_4 : FVec F S_ .f32 := constant S_ .f32 0x7F800000#32
  let main_v15 : FVec F S16384x2048 .f32 := broadcastInDim S16384x2048 ![] bcast_S_S16384x2048 main_cst_4
  let main_v16 : IVec S16384x2048 1 := cmpf .olt main_v14 main_v15
  fn_part1 (F := F) main_arg6 main_arg7 main_v13 main_v16
-- ==== Kernel.lean ====
abbrev S16384x2 : Shape := ⟨2, ![16384, 2]⟩
abbrev S2048x2048 : Shape := ⟨2, ![2048, 2048]⟩
abbrev S16384x2048 : Shape := ⟨2, ![16384, 2048]⟩
abbrev S16384 : Shape := ⟨1, ![16384]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S16384x2, .f32⟩
  | .hbm, ⟨1, _⟩ => ⟨S2048x2048, .f32⟩
  | .hbm, ⟨2, _⟩ => ⟨S16384x2, .f32⟩
  | .hbm, ⟨3, _⟩ => ⟨S16384x2048, .f32⟩
  | .hbm, ⟨4, _⟩ => ⟨S16384, .i32⟩
  | .hbm, ⟨5, _⟩ => ⟨S16384x2048, .i32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .i32⟩
  | .local _ .vmem, ⟨3, _⟩ => ⟨S512x2048, .i32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x2048_S512x2048_0_0 : ∀ a, (![0, 0] : Fin 2 → Nat) a + S512x2048.size a ≤ S512x2048.size a
  h_S512x2048 : 0 < S512x2048.numel
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .i32 = 32 ∨ (Rect.block (s := S16384x2048) S512x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

abbrev win0_0 : Pipeline.Window sig grid0 :=
  Pipeline.Window.ofSpec (Memref.whole main_arg3) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2 : Shape := ⟨2, ![16384, 2]⟩
abbrev S2048x2048 : Shape := ⟨2, ![2048, 2048]⟩
abbrev S16384x2048 : Shape := ⟨2, ![16384, 2048]⟩
abbrev S16384 : Shape := ⟨1, ![16384]⟩
abbrev S2048 : Shape := ⟨1, ![2048]⟩
abbrev S1x2048 : Shape := ⟨2, ![1, 2048]⟩
abbrev S_ : Shape := ⟨0, ![]⟩
abbrev S16384x1 : Shape := ⟨2, ![16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S2048x2048, .f32⟩
  | .hbm, ⟨2, _⟩ => ⟨S16384x2, .f32⟩
  | .hbm, ⟨3, _⟩ => ⟨S16384x2048, .f32⟩
  | .hbm, ⟨4, _⟩ => ⟨S16384, .i32⟩
  | .hbm, ⟨5, _⟩ => ⟨S16384x2048, .i32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S16384x2048, .f32⟩
  | .hbm, ⟨10, _⟩ => ⟨S16384x2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S_, .i32⟩
  | .hbm, ⟨30, _⟩ => ⟨S16384x2048, .i32⟩
  | .hbm, ⟨31, _⟩ => ⟨S16384x2048, .i1⟩
  | .hbm, ⟨32, _⟩ => ⟨S16384x2048, .i1⟩
  | .hbm, ⟨33, _⟩ => ⟨S_, .f32⟩
  | .hbm, ⟨34, _⟩ => ⟨S_, .f32⟩
  | .hbm, ⟨35, _⟩ => ⟨S16384x2048, .f32⟩
  | .hbm, ⟨36, _⟩ => ⟨S16384x2048, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v6 : Ref sig .tc := ⟨.hbm, 28, rfl⟩
abbrev main_c : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_v10 : Ref sig .tc := ⟨.hbm, 36, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S16384_d1 : S16384x2048.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  bcast_S_S16384x2048 : S_.BroadcastsInDim S16384x2048 (![] : Fin 0 → Fin S16384x2048.rank)

variable [Facts₀]

class Facts : Prop extends Facts₀ where

variable [Facts]
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.Spec.lean ====
/-
  The function both programs compute, as one index-by-index function of the four arrays they read.

  With `x` the [16384, 2048] table, `w` and `b` the two [2048] vectors and `mask` the [16384, 2048] integer mask:
  for row `r` and column `k`
    a (r, k)  =  w k · x (r, k) + b k                          (the per-column affine map)
    M r       =  max over k of a (r, k), taken from minus infinity
    S r       =  sum over k of exp (a (r, k) − M r)
    result (r, k)  =  the fill value −1e8 where mask (r, k) ≠ 0, else (a (r, k) − M r) − log (S r),
  a masked row-wise log-softmax of the affine map. All on the extended reals; no law of arithmetic is used between
  the two programs beyond the neutrality of minus infinity for `max`, so nothing here needs the entries finite.
-/
import Idealize.ShloMosaic.PureOps.Ideal.Laws
import Idealize.ShloMosaic.Lib.ValueIdx

noncomputable section

open scoped BigOperators

namespace Cert.MaskedLogSoftmax

open Idealize.ShloMosaic Idealize.ShloMosaic.ValueIdx

/-- The per-column affine map at row `r`, column `k`. -/
def affine (w b : FVec Ideal ⟨1, ![2048]⟩ .f32) (x : FVec Ideal ⟨2, ![16384, 2048]⟩ .f32) (r : Fin 16384) (k : Fin 2048) : EReal :=
  w (ix1 k) * x (ix2 r k) + b (ix1 k)

/-- The maximum of row `r` of the affine map, taken from minus infinity. -/
def rowMax (w b : FVec Ideal ⟨1, ![2048]⟩ .f32) (x : FVec Ideal ⟨2, ![16384, 2048]⟩ .f32) (r : Fin 16384) : EReal :=
  (Finset.univ : Finset (Fin 2048)).fold max (Ideal.ofBits .f32 0xFF800000#32) (affine w b x r)

/-- The sum over row `r` of the exponentials of the affine map less the row's maximum. -/
def rowExpSum (w b : FVec Ideal ⟨1, ![2048]⟩ .f32) (x : FVec Ideal ⟨2, ![16384, 2048]⟩ .f32) (r : Fin 16384) : EReal :=
  ∑ k : Fin 2048, Ideal.exp (affine w b x r k - rowMax w b x r)

/-- The log-softmax of row `r` at column `k`. -/
def logp (w b : FVec Ideal ⟨1, ![2048]⟩ .f32) (x : FVec Ideal ⟨2, ![16384, 2048]⟩ .f32) (r : Fin 16384) (k : Fin 2048) : EReal :=
  (affine w b x r k - rowMax w b x r) - Ideal.log (rowExpSum w b x r)

/-- The masked log-softmax: the fill value where the mask is not zero, the log-softmax elsewhere. -/
def result (w b : FVec Ideal ⟨1, ![2048]⟩ .f32) (x : FVec Ideal ⟨2, ![16384, 2048]⟩ .f32)
    (mask : (⟨2, ![16384, 2048]⟩ : Shape).Idx → BitVec 32) : FVec Ideal ⟨2, ![16384, 2048]⟩ .f32 :=
  fun i => Scalar.select (IntOp.cmpi .ne (mask i) 0#32) (Ideal.ofBits .f32 0xCCBEBC20#32) (logp w b x (i 0) (i 1))

theorem result_apply (w b : FVec Ideal ⟨1, ![2048]⟩ .f32) (x : FVec Ideal ⟨2, ![16384, 2048]⟩ .f32)
    (mask : (⟨2, ![16384, 2048]⟩ : Shape).Idx → BitVec 32) (r : Fin 16384) (k : Fin 2048) :
    result w b x mask (ix2 r k)
      = Scalar.select (IntOp.cmpi .ne (mask (ix2 r k)) 0#32) (Ideal.ofBits .f32 0xCCBEBC20#32) (logp w b x r k) := rfl

end Cert.MaskedLogSoftmax

end
-- ==== Proof.BlockValue.lean ====
/-
  One block of the kernel's output, as a function of the blocks it loads, is the masked row-wise log-softmax of the
  per-column affine map (Proof/Spec.lean) at the rows the block holds.

  The body loads a [512, 2048] block of the table, the same block of the mask and the two [1, 2048] rows; it broadcasts
  the rows down the 512 rows (`rowBroadcast_apply`), forms the affine map (`blkAffine_apply`), takes each row's
  maximum from minus infinity and broadcasts it back along the row (`colBroadcast_apply`, `blkShifted_apply`), sums
  the exponentials of the shifted entries, and stores the select between the fill value and the shifted entry less the
  logarithm of that sum. A row of the block is a whole row of the table (the block spans all 2048 columns), so the
  row's maximum and sum are the table's (`block_eq`): nothing crosses blocks.
-/
import proofs.«138530_j27410481283764_1_alg».proof.Proof.Gen.KernelIdeal.Value
import proofs.«138530_j27410481283764_1_alg».proof.Proof.LibRowReduce
import proofs.«138530_j27410481283764_1_alg».proof.Proof.Spec
import Idealize.ShloMosaic.Lib.Pipeline.Value
import Idealize.ShloMosaic.Lib.ValueIdx

noncomputable section

open scoped BigOperators

namespace Cert.KernelIdeal.BlockValue

open Cert.KernelIdeal Cert.KernelIdeal.Gen Cert.KernelIdeal.Value
open Idealize.ShloMosaic Idealize.ShloMosaic.TcCoe Idealize.ShloMosaic.ValueIdx Idealize.ShloMosaic.RowReduce
open Cert.MaskedLogSoftmax

/-- Row `p` of block `t` is row `512 t + p` of the table. -/
def rowOf (t : Fin 32) (p : Fin 512) : Fin 16384 := ⟨512 * t.val + p.val, by have := t.isLt; have := p.isLt; omega⟩

/-- A [1, 2048] row broadcast down 512 rows, read at (p, k): the row's entry `k`. -/
theorem rowBroadcast_apply (P : Vec Ideal S1x2048 .f32) (p : Fin 512) (k : Fin 2048) :
    broadcastTo S512x2048 (shapeCast S1x2048 P shapeCasts_S1x2048_S1x2048) broadcasts_S1x2048_S512x2048 (ix2 p k)
      = P (ix2 (0 : Fin 1) k) := by
  rw [shapeCast_self]
  exact broadcastTo_apply P broadcasts_S1x2048_S512x2048 (ix2 p k) (ix2 (0 : Fin 1) k) (fun a => match a with
    | ⟨0, _⟩ => by show 0 = (if (1 : Nat) = 1 then 0 else p.val); rw [if_pos rfl]
    | ⟨1, _⟩ => by show k.val = (if (2048 : Nat) = 1 then 0 else k.val); rw [if_neg (by decide)])

/-- A [512] column of per-row values, laid out as [512, 1] and broadcast along the 2048 columns, read at (p, k): the
    value of row `p`. -/
theorem colBroadcast_apply (M : FVec Ideal S512 .f32) (p : Fin 512) (k : Fin 2048) :
    broadcastTo S512x2048 (shapeCast S512x1 M shapeCasts_S512_S512x1) broadcasts_S512x1_S512x2048 (ix2 p k) = M (ix1 p) := by
  refine (broadcastTo_apply _ broadcasts_S512x1_S512x2048 (ix2 p k) (ix2 p (0 : Fin 1)) (fun a => match a with
    | ⟨0, _⟩ => by show p.val = (if (512 : Nat) = 1 then 0 else p.val); rw [if_neg (by decide)]
    | ⟨1, _⟩ => by show 0 = (if (1 : Nat) = 1 then 0 else k.val); rw [if_pos rfl])).trans ?_
  exact shapeCast_apply M shapeCasts_S512_S512x1 (ix2 p (0 : Fin 1)) (ix1 p)
    (by rw [Shape.rowMajor_val_one, Shape.rowMajor_val_two]; show p.val = p.val * 1 + 0; omega)

variable (P0 : Vec Ideal S512x2048 .i32) (P1 : Vec Ideal S1x2048 .f32) (P2 : Vec Ideal S512x2048 .f32) (P3 : Vec Ideal S1x2048 .f32)

/-- The block's affine map: the weight row times the block plus the bias row, both rows broadcast down the block. -/
abbrev blkAffine : FVec Ideal S512x2048 .f32 :=
  addf (mulf (broadcastTo S512x2048 (shapeCast S1x2048 P1 shapeCasts_S1x2048_S1x2048) broadcasts_S1x2048_S512x2048) P2)
    (broadcastTo S512x2048 (shapeCast S1x2048 P3 shapeCasts_S1x2048_S1x2048) broadcasts_S1x2048_S512x2048)

/-- Each row's maximum of the block's affine map, from minus infinity. -/
abbrev blkMax : FVec Ideal S512 .f32 :=
  multiReduction .maximumf [1] S512 (blkAffine P1 P2 P3) 0xFF800000#32 reduces_S512x2048_S512 (.inl rfl) rfl

/-- The block's affine map less its row's maximum. -/
abbrev blkShifted : FVec Ideal S512x2048 .f32 :=
  subf (blkAffine P1 P2 P3) (broadcastTo S512x2048 (shapeCast S512x1 (blkMax P1 P2 P3) shapeCasts_S512_S512x1) broadcasts_S512x1_S512x2048)

/-- Each row's sum of the exponentials of the shifted entries. -/
abbrev blkExpSum : FVec Ideal S512 .f32 :=
  multiReduction .add [1] S512 (exp (blkShifted P1 P2 P3)) 0x00000000#32 reduces_S512x2048_S512 (.inl rfl) rfl

theorem blkAffine_apply (p : Fin 512) (k : Fin 2048) :
    blkAffine P1 P2 P3 (ix2 p k) = P1 (ix2 (0 : Fin 1) k) * P2 (ix2 p k) + P3 (ix2 (0 : Fin 1) k) := by
  show broadcastTo S512x2048 (shapeCast S1x2048 P1 shapeCasts_S1x2048_S1x2048) broadcasts_S1x2048_S512x2048 (ix2 p k) * P2 (ix2 p k)
    + broadcastTo S512x2048 (shapeCast S1x2048 P3 shapeCasts_S1x2048_S1x2048) broadcasts_S1x2048_S512x2048 (ix2 p k) = _
  rw [rowBroadcast_apply, rowBroadcast_apply]

theorem blkShifted_apply (p : Fin 512) (k : Fin 2048) :
    blkShifted P1 P2 P3 (ix2 p k) = blkAffine P1 P2 P3 (ix2 p k) - blkMax P1 P2 P3 (ix1 p) := by
  show blkAffine P1 P2 P3 (ix2 p k)
    - broadcastTo S512x2048 (shapeCast S512x1 (blkMax P1 P2 P3) shapeCasts_S512_S512x1) broadcasts_S512x1_S512x2048 (ix2 p k) = _
  rw [colBroadcast_apply]

/-- What the body leaves at (p, q) of its output block, over the four loaded blocks. -/
theorem E4_apply (p : Fin 512) (q : Fin 2048) :
    E4 P0 P1 P2 P3 (ix2 p q)
      = Scalar.select (IntOp.cmpi .ne (P0 (ix2 p q)) 0#32) (Ideal.ofBits .f32 0xCCBEBC20#32)
          ((blkAffine P1 P2 P3 (ix2 p q) - blkMax P1 P2 P3 (ix1 p)) - Ideal.log (blkExpSum P1 P2 P3 (ix1 p))) := by
  have i0 : ix4_0 (ix2 p q) = ix2 p q := funext fun a => Fin.ext (by match a with | ⟨0, _⟩ => rfl | ⟨1, _⟩ => rfl)
  have i1 : ix4_1 (ix2 p q) = ix2 (0 : Fin 1) q := funext fun a => Fin.ext (by match a with | ⟨0, _⟩ => rfl | ⟨1, _⟩ => rfl)
  have i2 : ix4_2 (ix2 p q) = ix2 p q := funext fun a => Fin.ext (by match a with | ⟨0, _⟩ => rfl | ⟨1, _⟩ => rfl)
  have i3 : ix4_3 (ix2 p q) = ix2 (0 : Fin 1) q := funext fun a => Fin.ext (by match a with | ⟨0, _⟩ => rfl | ⟨1, _⟩ => rfl)
  have i4 : ix4_4 (ix2 p q) = ix1 p := funext fun a => Fin.ext (by match a with | ⟨0, _⟩ => rfl)
  have i5 : ix4_5 (ix2 p q) = ix1 p := funext fun a => Fin.ext (by match a with | ⟨0, _⟩ => rfl)
  show Scalar.select (IntOp.cmpi .ne (P0 (ix4_0 (ix2 p q))) 0#32) (Ideal.ofBits .f32 0xCCBEBC20#32)
      (((P1 (ix4_1 (ix2 p q)) * P2 (ix4_2 (ix2 p q)) + P3 (ix4_3 (ix2 p q))) - blkMax P1 P2 P3 (ix4_4 (ix2 p q)))
        - Ideal.log (blkExpSum P1 P2 P3 (ix4_5 (ix2 p q)))) = _
  rw [i0, i1, i2, i3, i4, i5, blkAffine_apply]

/-- THE BLOCK IS THE SPECIFICATION AT ITS ROWS. If the loaded blocks are block `t` of the table and of the mask, and
    the two rows are the weight and bias vectors, then the output block at (p, q) is the masked log-softmax of the
    table at row `512 t + p`, column `q`. -/
theorem block_eq (w b : FVec Ideal ⟨1, ![2048]⟩ .f32) (x : FVec Ideal ⟨2, ![16384, 2048]⟩ .f32)
    (mask : (⟨2, ![16384, 2048]⟩ : Shape).Idx → BitVec 32) (t : Fin 32)
    (h0 : ∀ (p : Fin 512) (q : Fin 2048), P0 (ix2 p q) = mask (ix2 (rowOf t p) q))
    (h1 : ∀ q : Fin 2048, P1 (ix2 (0 : Fin 1) q) = w (ix1 q))
    (h2 : ∀ (p : Fin 512) (q : Fin 2048), P2 (ix2 p q) = x (ix2 (rowOf t p) q))
    (h3 : ∀ q : Fin 2048, P3 (ix2 (0 : Fin 1) q) = b (ix1 q))
    (p : Fin 512) (q : Fin 2048) :
    E4 P0 P1 P2 P3 (ix2 p q) = result w b x mask (ix2 (rowOf t p) q) := by
  have hA : ∀ k : Fin 2048, blkAffine P1 P2 P3 (ix2 p k) = affine w b x (rowOf t p) k := fun k => by
    rw [blkAffine_apply, h1, h2, h3]; rfl
  have hM : blkMax P1 P2 P3 (ix1 p) = rowMax w b x (rowOf t p) := by
    show multiReduction .maximumf [1] S512 (blkAffine P1 P2 P3) 0xFF800000#32 reduces_S512x2048_S512 (.inl rfl) rfl (ix1 p) = _
    refine (multiReduction_maximumf_row (blkAffine P1 P2 P3) 0xFF800000#32 reduces_S512x2048_S512 (.inl rfl) rfl p).trans ?_
    exact congrArg (fun f => Finset.fold max (Ideal.ofBits .f32 0xFF800000#32) f (Finset.univ : Finset (Fin 2048))) (funext hA)
  have hS : blkExpSum P1 P2 P3 (ix1 p) = rowExpSum w b x (rowOf t p) := by
    show multiReduction .add [1] S512 (exp (blkShifted P1 P2 P3)) 0x00000000#32 reduces_S512x2048_S512 (.inl rfl) rfl (ix1 p) = _
    refine (multiReduction_add_row (exp (blkShifted P1 P2 P3)) 0x00000000#32 reduces_S512x2048_S512 (.inl rfl) rfl p).trans ?_
    refine Finset.sum_congr rfl fun k _ => ?_
    show Ideal.exp (blkShifted P1 P2 P3 (ix2 p k)) = _
    rw [blkShifted_apply, hA, hM]
  rw [E4_apply, result_apply, hA, hM, hS, h0]
  rfl

end Cert.KernelIdeal.BlockValue

end
-- ==== Proof.KernelValue.lean ====
/-
  The kernel's result array after the run is the masked row-wise log-softmax of the per-column affine map
  (Proof/Spec.lean) of the argument arrays.

  Grid point `t` (of 32) stages rows `512 t … 512 t + 511` of the table and of the mask, all 2048 columns, and the two
  vectors whole, each reshaped by the host to one row of 2048 (`tableBlock_apply`, `maskBlock_apply`, `weightRow_apply`,
  `biasRow_apply`); what it writes back is therefore block `t` of the specification (`flushed_eq`, from the block
  lemma of Proof/BlockValue.lean). The 32 output blocks tile the array — row `r` lies in block `r / 512` — (`cover`),
  so the array ends at the specification (`final`, `run`).
-/
import proofs.«138530_j27410481283764_1_alg».proof.Proof.BlockValue
import Idealize.ShloMosaic.Lib.StableHlo.Run

noncomputable section

namespace Cert.KernelIdeal.KernelValue

open Cert.KernelIdeal Cert.KernelIdeal.Gen Cert.KernelIdeal.Value Cert.KernelIdeal.BlockValue
open Idealize.ShloMosaic Idealize.ShloMosaic.TcCoe Idealize.SL.Sem Idealize.ShloMosaic.ValueIdx
open Idealize.ShloMosaic.Pipeline (Dat)
open Cert.MaskedLogSoftmax

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the table's, the mask's and the output's block index is the grid
    point on the rows and 0 on the columns; the two rows' block index is (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A grid point as a block number. -/
def blockOf (t : Fin cfg0.N) : Fin 32 := ⟨t.val, by have h := t.isLt; have hN : cfg0.N = 32 := N_0; omega⟩

/-- The specification at the argument arrays as launched. -/
abbrev spec (c : Dev nD) : Buf (Elt Ideal) ((c : Thread nD τ).loc main_v2) :=
  result (m ((c : Thread nD τ).loc main_arg6)) (m ((c : Thread nD τ).loc main_arg7)) (m ((c : Thread nD τ).loc main_arg3))
    (m ((c : Thread nD τ).loc main_arg5))

/-- The table's block at point `t`, at (p, q): the table at row `512 t + p`, column `q`. -/
theorem tableBlock_apply (c : Dev nD) (t : Fin cfg0.N) (p : Fin 512) (q : Fin 2048) :
    (iblk m c 0 t : Vec Ideal S512x2048 .f32) (ix2 p q)
      = (m ((c : Thread nD τ).loc main_arg3) : S16384x2048.Idx → Elt Ideal .f32) (ix2 (rowOf (blockOf t) p) q) := by
  obtain ⟨e0, e1, -⟩ := idx_facts t
  unfold iblk
  rw [View.read_apply]
  show V m c main_arg3 _ = _
  rw [V_main_arg3]
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 2048 + 1 * q.val = q.val; rw [e1]; omega

/-- The mask's block at point `t`, at (p, q): the mask at row `512 t + p`, column `q`. -/
theorem maskBlock_apply (c : Dev nD) (t : Fin cfg0.N) (p : Fin 512) (q : Fin 2048) :
    (iblk m c 1 t : Vec Ideal S512x2048 .i32) (ix2 p q)
      = (m ((c : Thread nD τ).loc main_arg5) : S16384x2048.Idx → Elt Ideal .i32) (ix2 (rowOf (blockOf t) p) q) := by
  obtain ⟨-, -, e0, e1, -⟩ := idx_facts t
  unfold iblk
  rw [View.read_apply]
  show V m c main_arg5 _ = _
  rw [V_main_arg5]
  congr 1
  funext a
  apply Fin.ext
  match a with
  | ⟨0, _⟩ => show win0_1.index t (0 : Fin 2) * 512 + 1 * p.val = 512 * t.val + p.val; rw [e0]; omega
  | ⟨1, _⟩ => show win0_1.index t (1 : Fin 2) * 2048 + 1 * q.val = q.val; rw [e1]; omega

/-- The host reshapes the weight vector to one row before the region. -/
theorem weightArr_eq (c : Dev nD) :
    (V m c main_v0 : S1x2048.Idx → Elt Ideal .f32)
      = shapeCast S1x2048 (m ((c : Thread nD τ).loc main_arg6) : S2048.Idx → Elt Ideal .f32) shapeCasts_S2048_S1x2048 := by
  dsimp only [Gen.V, Gen.hostOps0]; after_results; rfl

/-- The host reshapes the bias vector to one row before the region. -/
theorem biasArr_eq (c : Dev nD) :
    (V m c main_v1 : S1x2048.Idx → Elt Ideal .f32)
      = shapeCast S1x2048 (m ((c : Thread nD τ).loc main_arg7) : S2048.Idx → Elt Ideal .f32) shapeCasts_S2048_S1x2048 := by
  dsimp only [Gen.V, Gen.hostOps0]; after_results; rfl

/-- The weight row staged at any point, at (0, q): the weight vector's entry `q`. -/
theorem weightRow_apply (c : Dev nD) (t : Fin cfg0.N) (q : Fin 2048) :
    (iblk m c 2 t : Vec Ideal S1x2048 .f32) (ix2 (0 : Fin 1) q)
      = (m ((c : Thread nD τ).loc main_arg6) : S2048.Idx → Elt Ideal .f32) (ix1 q) := by
  obtain ⟨-, -, -, -, e0, e1, -⟩ := idx_facts t
  unfold iblk
  rw [View.read_apply]
  show (V m c main_v0 : S1x2048.Idx → Elt Ideal .f32) _ = _
  rw [weightArr_eq]
  refine shapeCast_apply _ shapeCasts_S2048_S1x2048 _ (ix1 q) ?_
  rw [Shape.rowMajor_val_one, Shape.rowMajor_val_two]
  show q.val = (win0_2.index t (0 : Fin 2) * 1 + 1 * 0) * 2048 + (win0_2.index t (1 : Fin 2) * 2048 + 1 * q.val)
  rw [e0, e1]; omega

/-- The bias row staged at any point, at (0, q): the bias vector's entry `q`. -/
theorem biasRow_apply (c : Dev nD) (t : Fin cfg0.N) (q : Fin 2048) :
    (iblk m c 3 t : Vec Ideal S1x2048 .f32) (ix2 (0 : Fin 1) q)
      = (m ((c : Thread nD τ).loc main_arg7) : S2048.Idx → Elt Ideal .f32) (ix1 q) := by
  obtain ⟨-, -, -, -, -, -, e0, e1, -⟩ := idx_facts t
  unfold iblk
  rw [View.read_apply]
  show (V m c main_v1 : S1x2048.Idx → Elt Ideal .f32) _ = _
  rw [biasArr_eq]
  refine shapeCast_apply _ shapeCasts_S2048_S1x2048 _ (ix1 q) ?_
  rw [Shape.rowMajor_val_one, Shape.rowMajor_val_two]
  show q.val = (win0_3.index t (0 : Fin 2) * 1 + 1 * 0) * 2048 + (win0_3.index t (1 : Fin 2) * 2048 + 1 * q.val)
  rw [e0, e1]; omega

/-- WHAT POINT `t` WRITES BACK is block `t` of the specification. -/
theorem flushed_eq (c : Dev nD) (t : Fin cfg0.N) :
    (dats m 0 c).flushed 4 t = ((cfg0.win 4).blk t).view.read (Elt Ideal) (spec m c) := by
  rw [flushed4]
  funext y
  obtain ⟨p, q, rfl⟩ : ∃ (p : Fin 512) (q : Fin 2048), y = ix2 p q := ⟨y 0, y 1, eq_ix2 y⟩
  obtain ⟨-, -, -, -, -, -, -, -, e0, e1⟩ := idx_facts t
  show out0_4 (iblk m c 0 t) (iblk m c 1 t) (iblk m c 2 t) (iblk m c 3 t) (ix2 p q)
    = spec m c (((cfg0.win 4).blk t).view.emb (ix2 p q))
  unfold out0_4
  refine (canon4_eq _ _ _ _ (ix2 p q)).trans ?_
  simp only [View.ld_unit_zero (S := S512x2048) hz, View.ld_unit_zero (S := S1x2048) hz]
  refine (block_eq (iblk m c 1 t) (iblk m c 2 t) (iblk m c 0 t) (iblk m c 3 t)
    (m ((c : Thread nD τ).loc main_arg6)) (m ((c : Thread nD τ).loc main_arg7)) (m ((c : Thread nD τ).loc main_arg3))
    (m ((c : Thread nD τ).loc main_arg5)) (blockOf t)
    (maskBlock_apply m c t) (weightRow_apply m c t) (tableBlock_apply m c t) (biasRow_apply m c t) p q).trans ?_
  refine congrArg (spec m c) (funext fun a => Fin.ext ?_)
  match a with
  | ⟨0, _⟩ => show 512 * t.val + p.val = win0_4.index t (0 : Fin 2) * 512 + 1 * p.val; rw [e0]; omega
  | ⟨1, _⟩ => show q.val = win0_4.index t (1 : Fin 2) * 2048 + 1 * q.val; rw [e1]; omega

/-- An index of the array is in point `t`'s output block iff each coordinate is in the block's range on its axis. -/
theorem mem_blk (t : Fin cfg0.N) (i : S16384x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v2).slice (win0_4.rect t)).set ↔ _
  rw [View.set_slice_whole, Rect.mem_set_unit]
  exact Iff.rfl

/-- The output blocks tile the array: row `r` is in the block of point `r / 512`. -/
theorem cover (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  have hN : cfg0.N = 32 := N_0
  let t : Fin cfg0.N := ⟨(i 0).val / 512, by rw [hN]; omega⟩
  have ht : t.val = (i 0).val / 512 := rfl
  obtain ⟨-, -, -, -, -, -, -, -, e0, e1⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 2048 ≤ (i 1).val ∧ (i 1).val < win0_4.index t (1 : Fin 2) * 2048 + 2048
    rw [e1]; omega

/-- The result array after the run is the specification. -/
theorem final (c : Dev nD) : (dats m 0 c).arrAt 4 cfg0.N = spec m c :=
  (dats m 0 c).arrAt_eq_of_cover 4 (spec m c) (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.KernelValue

end
-- ==== Proof.RefValue.lean ====
/-
  The reference's result, read one operation at a time, is the masked row-wise log-softmax of the per-column
  affine map (Proof/Spec.lean), index by index.

  The reference broadcasts the two [2048] vectors along the rows, so at (r, k) its affine stage is
  w k · x (r, k) + b k (`affine_eq`). Its row maximum is a host reduce from minus infinity joined once more with
  minus infinity, which changes nothing (`rowMax_eq`); the shifted entries, the sum of their exponentials from zero
  (`shifted_eq`, `rowExpSum_eq`) and the difference with its logarithm (`logp_eq`) follow stage by stage; the
  select on "mask ≠ 0" with the broadcast fill value is the last stage (`result_eq`).
-/
import proofs.«138530_j27410481283764_1_alg».proof.Proof.RefRead
import proofs.«138530_j27410481283764_1_alg».proof.Proof.LibRowReduce
import proofs.«138530_j27410481283764_1_alg».proof.Proof.Spec

noncomputable section

open scoped BigOperators

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.ShloMosaic.RowReduce
open Cert.MaskedLogSoftmax

variable (x3 : (⟨S16384x2048, .f32⟩ : BufTy).Contents (Elt Ideal)) (x5 : (⟨S16384x2048, .i32⟩ : BufTy).Contents (Elt Ideal))
  (x6 x7 : (⟨S2048, .f32⟩ : BufTy).Contents (Elt Ideal))

/-- The affine stage at (r, k): the column's weight times the entry plus the column's bias. -/
theorem affine_eq (r : Fin 16384) (k : Fin 2048) :
    val_main_v5 (F := Ideal) x3 x6 x7 (ix2 r k) = affine x6 x7 x3 r k := by
  rw [val_main_v5_apply, val_main_v2_apply, val_main_v1_apply, val_main_v0_apply, val_main_v4_apply, val_main_v3_apply]
  have e6 : idx_main_v0 (idx_main_v1 (ix2 r k)) = ix1 k := funext fun a => Fin.ext (by match a with | ⟨0, _⟩ => rfl)
  have e7 : idx_main_v3 (idx_main_v4 (ix2 r k)) = ix1 k := funext fun a => Fin.ext (by match a with | ⟨0, _⟩ => rfl)
  rw [e6, e7]
  rfl

/-- The row maximum: the host's reduce from minus infinity over the row, joined with minus infinity again. -/
theorem rowMax_eq (r : Fin 16384) :
    val_main_call0_v2 (F := Ideal) x3 x6 x7 (ix1 r) = rowMax x6 x7 x3 r := by
  rw [val_main_call0_v2_apply, val_main_call0_v1_apply, val_main_call0_cst_0_apply]
  unfold val_main_call0_v0
  rw [hostReduce_maximumf_row (val_main_v5 (F := Ideal) x3 x6 x7) (val_main_call0_cst (F := Ideal))
    reducesTo_S16384x2048_S16384_d1 (by decide) h_S_ r]
  have hf : (fun k : Fin 2048 => val_main_v5 (F := Ideal) x3 x6 x7 (ix2 r k)) = affine x6 x7 x3 r :=
    funext fun k => affine_eq x3 x6 x7 r k
  rw [hf]
  exact max_negInf_fold (affine x6 x7 x3 r)

/-- The shifted entry at (r, k): the affine stage less the row's maximum. -/
theorem shifted_eq (r : Fin 16384) (k : Fin 2048) :
    val_main_call0_v5 (F := Ideal) x3 x6 x7 (ix2 r k) = affine x6 x7 x3 r k - rowMax x6 x7 x3 r := by
  rw [val_main_call0_v5_apply, val_main_call0_v4_apply, val_main_call0_v3_apply]
  have e : idx_main_call0_v3 (idx_main_call0_v4 (ix2 r k)) = ix1 r := funext fun a => Fin.ext (by match a with | ⟨0, _⟩ => rfl)
  rw [e, affine_eq, rowMax_eq]
  rfl

/-- The row's sum of exponentials, from zero. -/
theorem rowExpSum_eq (r : Fin 16384) :
    val_main_call0_v7 (F := Ideal) x3 x6 x7 (ix1 r) = rowExpSum x6 x7 x3 r := by
  rw [val_main_call0_v7_apply]
  have e : ∀ k : Fin 2048, idx_main_call0_v7 (ix1 r) k = ix2 r k := fun k =>
    funext fun a => Fin.ext (by match a with | ⟨0, _⟩ => rfl | ⟨1, _⟩ => rfl)
  simp only [e, val_main_call0_v6_apply, shifted_eq]
  show Ideal.ofBits .f32 0x00000000#32 + _ = _
  rw [Ideal.ofBits_zero_f32, zero_add]
  rfl

/-- The log-softmax at (r, k). -/
theorem logp_eq (r : Fin 16384) (k : Fin 2048) :
    val_main_v6 (F := Ideal) x3 x6 x7 (ix2 r k) = logp x6 x7 x3 r k := by
  rw [val_main_v6_apply, val_main_call0_v10_apply, val_main_call0_v9_apply, val_main_call0_v8_apply]
  have e : idx_main_call0_v8 (idx_main_call0_v10 (ix2 r k)) = ix1 r := funext fun a => Fin.ext (by match a with | ⟨0, _⟩ => rfl)
  rw [e, shifted_eq, rowExpSum_eq]
  rfl

/-- The reference's result is the masked log-softmax of the affine map. -/
theorem result_eq : val_main_v10 (F := Ideal) x3 x5 x6 x7 = result x6 x7 x3 x5 := by
  funext i
  obtain ⟨r, k, rfl⟩ : ∃ (r : Fin 16384) (k : Fin 2048), i = ix2 r k := ⟨i 0, i 1, eq_ix2 i⟩
  rw [val_main_v10_apply, val_main_v9_apply, val_main_v8_apply, val_main_v7_apply, val_main_c_apply,
    val_main_call1_v1_apply, val_main_call1_v0_apply, val_main_cst_apply, logp_eq]
  rfl

end Cert.ReferenceIdeal.RefValue

end
-- ==== Proof.lean ====
/-
  A masked row-wise log-softmax of a per-column affine map, as one Pallas kernel against its jnp reference.

  Both programs compute, for the [16384, 2048] table x, the two [2048] vectors w and b and the integer mask,
      a (r, k) = w k · x (r, k) + b k,      M r = max over k of a (r, k),      S r = sum over k of exp (a (r, k) − M r),
      result (r, k) = −1e8 where mask (r, k) ≠ 0, else (a (r, k) − M r) − log (S r)
  (Proof/Spec.lean). The kernel tiles the rows in 32 blocks of 512 and keeps all 2048 columns in a block, so each row's
  maximum and sum are taken inside one block (Proof/BlockValue.lean, Proof/KernelValue.lean); the reference takes them
  over the whole array with the host's reduces, its maximum joined once more with minus infinity, which changes nothing
  (Proof/RefValue.lean). On the extended reals the two are the same function term by term: no law of arithmetic is
  needed between them beyond the neutrality of minus infinity for the maximum, so the precondition is never opened.
  The kernel's idealization rewrote nothing, so `preserves` is `True`.
-/
import proofs.«138530_j27410481283764_1_alg».proof.Defs
import proofs.«138530_j27410481283764_1_alg».proof.Proof.Gen.Kernel
import proofs.«138530_j27410481283764_1_alg».proof.Proof.Gen.Kernel.Skeleton
import proofs.«138530_j27410481283764_1_alg».proof.Proof.Gen.Kernel.Launch
import proofs.«138530_j27410481283764_1_alg».proof.Proof.Gen.Kernel.Points
import proofs.«138530_j27410481283764_1_alg».proof.Proof.Gen.Kernel.Frame
import proofs.«138530_j27410481283764_1_alg».proof.Proof.Gen.KernelIdeal
import proofs.«138530_j27410481283764_1_alg».proof.Proof.Gen.KernelIdeal.Skeleton
import proofs.«138530_j27410481283764_1_alg».proof.Proof.Gen.KernelIdeal.Launch
import proofs.«138530_j27410481283764_1_alg».proof.Proof.Gen.KernelIdeal.Points
import proofs.«138530_j27410481283764_1_alg».proof.Proof.Gen.KernelIdeal.Frame
import proofs.«138530_j27410481283764_1_alg».proof.Proof.Gen.KernelIdeal.Value
import proofs.«138530_j27410481283764_1_alg».proof.Proof.Gen.ReferenceIdeal
import proofs.«138530_j27410481283764_1_alg».proof.Proof.Gen.Pre_finite_inputs
import proofs.«138530_j27410481283764_1_alg».proof.Proof.RefRun
import proofs.«138530_j27410481283764_1_alg».proof.Proof.RefRead
import proofs.«138530_j27410481283764_1_alg».proof.Proof.KernelValue
import proofs.«138530_j27410481283764_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the masked log-softmax of the affine map of those
    arguments: the kernel block by block, the reference stage by stage. -/
theorem algebraic : Cert.algebraic_KernelIdeal_ReferenceIdeal := by
  intro m ρ m' ρ' _ hagree
  refine ⟨fun c => Cert.KernelIdeal.KernelValue.spec m c, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨-, -, -, h3, -, h5, h6, h7⟩ := hagree c
  refine (Cert.ReferenceIdeal.ReadP.val_main_v10_eq _ _ _ _).trans ?_
  rw [Cert.ReferenceIdeal.RefValue.result_eq, h3, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
